-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x128 .f32) (main_arg1 : IVec S1048576 32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_c_0 : IVec S_ 32 := constantI S_ 32 0#32
  let main_v4 : IVec S1048576 32 := broadcastInDim S1048576 ![] bcast_S_S1048576 main_c_0
  let main_v5 : IVec S1048576 1 := cmpi .sge main_arg1 main_v4
  let main_c_1 : IVec S_ 32 := constantI S_ 32 128#32
  let main_v6 : IVec S1048576 32 := broadcastInDim S1048576 ![] bcast_S_S1048576 main_c_1
  let main_v7 : IVec S1048576 1 := cmpi .slt main_arg1 main_v6
  let main_v8 : IVec S1048576 1 := andi main_v5 main_v7
  let main_c_2 : IVec S_ 1 := constantI S_ 1 1#1
  let main_v9 : IVec S_ 1 := (fun x v => Host.reduce IntOp.andi x v reducesTo_S1048576_S_d0 h_S_) main_v8 main_c_2
  let main_v10 : IVec S_ 1 := andi main_v3 main_v9
  main_v10
-- ==== Kernel.lean ====
abbrev S1048576x128 : Shape := ⟨2, ![1048576, 128]⟩
abbrev S1048576 : Shape := ⟨1, ![1048576]⟩
abbrev S8192x128 : Shape := ⟨2, ![8192, 128]⟩
abbrev S2x1x1 : Shape := ⟨3, ![2, 1, 1]⟩
abbrev S64x128 : Shape := ⟨2, ![64, 128]⟩
abbrev S1x1x1 : Shape := ⟨3, ![1, 1, 1]⟩
abbrev S1x1 : Shape := ⟨2, ![1, 1]⟩
abbrev S8192x1 : Shape := ⟨2, ![8192, 1]⟩
abbrev S8192 : Shape := ⟨1, ![8192]⟩
abbrev S64 : Shape := ⟨1, ![64]⟩
abbrev S64x1 : Shape := ⟨2, ![64, 1]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S8192x128, .i32⟩
  | .hbm, ⟨3, _⟩ => ⟨S2x1x1, .f32⟩
  | .hbm, ⟨4, _⟩ => ⟨S_, .f32⟩
  | .hbm, ⟨5, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S64x128, .i32⟩
  | .local _ .vmem, ⟨3, _⟩ => ⟨S64x128, .i32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v29 : BitVec 1 := Scalar.cmpi .eq arg1 c63_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1048576_S8192x128 : S1048576.ShapeCasts S8192x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S8192x1 : S64x128.ShapeCasts S8192x1
  iota_S8192x128_d1_w32 : S8192x128.Iotas .tc 32 [1]
  broadcasts_S8192x1_S8192x128 : S8192x1.Broadcasts S8192x128
  reduces_S8192x128_S8192 : S8192x128.Reduces [1] S8192
  shapeCasts_S8192_S8192x1 : S8192.ShapeCasts S8192x1
  shapeCasts_S8192x1_S64x128 : S8192x1.ShapeCasts S64x128
  reduces_S64x128_S64 : S64x128.Reduces [1] S64
  shapeCasts_S64_S64x1 : S64.ShapeCasts S64x1
  reduces_S64x1_S1 : S64x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S8192x128.size a
  hwx0_1 : ∀ i : grid0.Coords, EltTy.bits .i32 = 32 ∨ (Rect.block (s := S8192x128) S64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1048576x128 : Shape := ⟨2, ![1048576, 128]⟩
abbrev S1048576 : Shape := ⟨1, ![1048576]⟩
abbrev S1048576x1 : Shape := ⟨2, ![1048576, 1]⟩
abbrev S_ : Shape := ⟨0, ![]⟩
abbrev S1048576x1x1 : Shape := ⟨3, ![1048576, 1, 1]⟩
abbrev S1 : Shape := ⟨1, ![1]⟩
abbrev S1x1x1 : Shape := ⟨3, ![1, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S1048576x1, .i32⟩
  | .hbm, ⟨3, _⟩ => ⟨S_, .i32⟩
  | .hbm, ⟨4, _⟩ => ⟨S1048576x1, .i32⟩
  | .hbm, ⟨5, _⟩ => ⟨S1048576x1, .i1⟩
  | .hbm, ⟨6, _⟩ => ⟨S_, .i32⟩
  | .hbm, ⟨7, _⟩ => ⟨S1048576x1, .i32⟩
  | .hbm, ⟨8, _⟩ => ⟨S1048576x1, .i32⟩
  | .hbm, ⟨9, _⟩ => ⟨S1048576x1, .i32⟩
  | .hbm, ⟨10, _⟩ => ⟨S1048576x1x1, .i32⟩
  | .hbm, ⟨11, _⟩ => ⟨S1, .i32⟩
  | .hbm, ⟨12, _⟩ => ⟨S_, .i32⟩
  | .hbm, ⟨13, _⟩ => ⟨S1048576x1x1, .i32⟩
  | .hbm, ⟨14, _⟩ => ⟨S1048576x1x1, .i1⟩
  | .hbm, ⟨15, _⟩ => ⟨S1x1x1, .i32⟩
  | .hbm, ⟨16, _⟩ => ⟨S1048576x1x1, .i32⟩
  | .hbm, ⟨17, _⟩ => ⟨S1048576x1x1, .i1⟩
  | .hbm, ⟨18, _⟩ => ⟨S1048576x1x1, .i1⟩
  | .hbm, ⟨19, _⟩ => ⟨S_, .i1⟩
  | .hbm, ⟨20, _⟩ => ⟨S1048576x1, .i1⟩
  | .hbm, ⟨21, _⟩ => ⟨S1048576x1, .f32⟩
  | .hbm, ⟨22, _⟩ => ⟨S_, .f32⟩
  | .hbm, ⟨23, _⟩ => ⟨S1048576x1, .f32⟩
  | .hbm, ⟨24, _⟩ => ⟨S1048576x1, .f32⟩
  | .hbm, ⟨25, _⟩ => ⟨S1048576, .f32⟩
  | .hbm, ⟨26, _⟩ => ⟨S1048576, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  shapeCasts_S1048576x1_S1048576x1x1 : S1048576x1.ShapeCasts S1048576x1x1
  bcast_S_S1048576x1x1 : S_.BroadcastsInDim S1048576x1x1 (![] : Fin 0 → Fin S1048576x1x1.rank)
  bcast_S1_S1x1x1_2 : S1.BroadcastsInDim S1x1x1 (![2] : Fin 1 → Fin S1x1x1.rank)
  bcast_S1x1x1_S1048576x1x1_0_1_2 : S1x1x1.BroadcastsInDim S1048576x1x1 (![0, 1, 2] : Fin 3 → Fin S1048576x1x1.rank)
  reducesTo_S1048576x1x1_S1048576x1_d2 : S1048576x1x1.ReducesTo [2] S1048576x1
  h_S_ : 0 < S_.numel
  shapeCasts_S1048576x1_S1048576 : S1048576x1.ShapeCasts S1048576
  reducesTo_S1048576_S_d0 : S1048576.ReducesTo [0] S_
  gather_S1048576x128_S1048576x1x1_S1048576x1_n_1_0_0_1_2_11_wf : GatherDims.WF S1048576x128 S1048576x1x1 S1048576x1 [] [1] [0] [1] [0] 2 ![1, 1]

variable [Facts₀]

def gather_S1048576x128_S1048576x1x1_S1048576x1_n_1_0_0_1_2_11 : GatherDims S1048576x128 S1048576x1x1 S1048576x1 where
  offsetDims := []
  collapsedSliceDims := [1]
  operandBatchingDims := [0]
  startIndicesBatchingDims := [0]
  startIndexMap := [1]
  indexVectorDim := 2
  sliceSizes := ![1, 1]
  wf := gather_S1048576x128_S1048576x1x1_S1048576x1_n_1_0_0_1_2_11_wf

class Facts : Prop extends Facts₀ where

variable [Facts]
-- ==== Proof.Pieces.lean ====
/-
  What each control case of the body leaves in the running scalar and in the output block, as the body's own terms.

  The body has three cases by the position `i` of the point in its core's run of 64: at `i = 0` it resets the scalar to
  zero and then adds the point's contribution; in between it adds the contribution to what the point before left; at
  `i = 63` it does the same and copies the scalar into the one-entry output block.
-/
import proofs.«420422_j55989193670921_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- In between: the scalar found, plus the point's contribution. -/
theorem sout_B (c : Dev nD) (i : grid0.Coords) (a2 : Memref sig .tc .vmem S8192x128 .f32) (h2 : a2.IsWhole) (a3 : Memref sig .tc .vmem S64x128 .i32) (h3 : a3.IsWhole) (a4 : Memref sig .tc .vmem S1x1x1 .f32) (h4 : a4.IsWhole) (a5 : Memref sig .tc .vmem S1x1 .f32) (h5 : a5.IsWhole) (hc0 : ¬cond0_0 i) (hc1 : ¬cond0_1 i) (x0 : Vec F S8192x128 .f32) (x1 : Vec F S64x128 .i32) (xs0 : Vec F S1x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S8192x128) hz2, View.ld_unit_zero (S := S64x128) hz2, View.ld_unit_zero (S := S1x1) hz2]

/-- At the first point of a run: the reset's zero, plus the point's contribution. -/
theorem sout_A (c : Dev nD) (i : grid0.Coords) (a2 : Memref sig .tc .vmem S8192x128 .f32) (h2 : a2.IsWhole) (a3 : Memref sig .tc .vmem S64x128 .i32) (h3 : a3.IsWhole) (a4 : Memref sig .tc .vmem S1x1x1 .f32) (h4 : a4.IsWhole) (a5 : Memref sig .tc .vmem S1x1 .f32) (h5 : a5.IsWhole) (hc0 : cond0_0 i) (hc1 : ¬cond0_1 i) (x0 : Vec F S8192x128 .f32) (x1 : Vec F S64x128 .i32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2]
  simp only [View.readCov_unit_zero (S := S1x1) _ hz2, View.readAt_eq_ld, h2.read_unread, h3.read_unread, h5.read_unread, View.ld_unit_zero (S := S8192x128) hz2, View.ld_unit_zero (S := S64x128) hz2, View.ld_unit_zero (S := S1x1) hz2]

/-- At the last point of a run the scalar is updated as in between. -/
theorem sout_C (c : Dev nD) (i : grid0.Coords) (a2 : Memref sig .tc .vmem S8192x128 .f32) (h2 : a2.IsWhole) (a3 : Memref sig .tc .vmem S64x128 .i32) (h3 : a3.IsWhole) (a4 : Memref sig .tc .vmem S1x1x1 .f32) (h4 : a4.IsWhole) (a5 : Memref sig .tc .vmem S1x1 .f32) (h5 : a5.IsWhole) (hc0 : ¬cond0_0 i) (hc1 : cond0_1 i) (x0 : Vec F S8192x128 .f32) (x1 : Vec F S64x128 .i32) (xs0 : Vec F S1x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S8192x128) hz2, View.ld_unit_zero (S := S64x128) hz2, View.ld_unit_zero (S := S1x1) hz2]

/-- At the last point of a run the output block receives the updated scalar. -/
theorem out_C (c : Dev nD) (i : grid0.Coords) (a2 : Memref sig .tc .vmem S8192x128 .f32) (h2 : a2.IsWhole) (a3 : Memref sig .tc .vmem S64x128 .i32) (h3 : a3.IsWhole) (a4 : Memref sig .tc .vmem S1x1x1 .f32) (h4 : a4.IsWhole) (a5 : Memref sig .tc .vmem S1x1 .f32) (h5 : a5.IsWhole) (hc0 : ¬cond0_0 i) (hc1 : cond0_1 i) (x0 : Vec F S8192x128 .f32) (x1 : Vec F S64x128 .i32) (xs0 : Vec F S1x1 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readCov_unit_zero (S := S1x1) _ hz2, View.readAt_eq_ld, h2.read_unread, h3.read_unread, h5.read_unread, View.ld_unit_zero (S := S8192x128) hz2, View.ld_unit_zero (S := S64x128) hz2, View.ld_unit_zero (S := S1x1) hz2]

end Cert.KernelIdeal.Pieces

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.LibReduceLayout.lean ====
/-
  General reading lemmas, over any extents: a matrix regrouped row-major into one column and back, the row sums and the
  column sum of a matrix as plain sums at the exact instance, and a one-entry vector made a one-entry matrix.
-/
import Idealize.ShloMosaic.Lib.ValueLayout
import Idealize.ShloMosaic.PureOps.Ideal.Laws

noncomputable section

namespace Cert.LibReduceLayout

open Idealize.ShloMosaic Idealize.ShloMosaic.ValueIdx

variable {α : Type}

/-- An `[a, b]` array regrouped as an `[n, 1]` column reads, at row `r = p·b + q`, the operand at `(p, q)`. -/
theorem shapeCast_ab_n1_apply {a b n : ℕ} (x : (⟨2, ![a, b]⟩ : Shape).Idx → α)
    (h : (⟨2, ![a, b]⟩ : Shape).ShapeCasts ⟨2, ![n, 1]⟩) (p : Fin a) (q : Fin b) (r : Fin n) (u : Fin 1)
    (hr : r.val = p.val * b + q.val) : shapeCast ⟨2, ![n, 1]⟩ x h (ix2 r u) = x (ix2 p q) :=
  shapeCast_apply x h _ _ (by
    rw [Shape.rowMajor_val_two, Shape.rowMajor_val_two]
    show p.val * b + q.val = r.val * 1 + u.val
    have hu : u.val = 0 := by omega
    omega)

/-- An `[n, 1]` column regrouped as an `[a, b]` array reads, at `(p, q)`, the column's row `r = p·b + q`. -/
theorem shapeCast_n1_ab_apply {a b n : ℕ} (x : (⟨2, ![n, 1]⟩ : Shape).Idx → α)
    (h : (⟨2, ![n, 1]⟩ : Shape).ShapeCasts ⟨2, ![a, b]⟩) (p : Fin a) (q : Fin b) (r : Fin n)
    (hr : r.val = p.val * b + q.val) : shapeCast ⟨2, ![a, b]⟩ x h (ix2 p q) = x (ix2 r (0 : Fin 1)) :=
  shapeCast_apply x h _ _ (by
    rw [Shape.rowMajor_val_two, Shape.rowMajor_val_two]
    show r.val * 1 + 0 = p.val * b + q.val
    omega)

/-- A `[1]` array made a `[1, 1]` array reads, anywhere, the operand's one entry. -/
theorem shapeCast_1_11_apply (x : (⟨1, ![1]⟩ : Shape).Idx → α) (h : (⟨1, ![1]⟩ : Shape).ShapeCasts ⟨2, ![1, 1]⟩)
    (y : (⟨2, ![1, 1]⟩ : Shape).Idx) : shapeCast ⟨2, ![1, 1]⟩ x h y = x (ix1 (0 : Fin 1)) :=
  shapeCast_apply x h _ _ (by
    rw [Shape.rowMajor_val_two, Shape.rowMajor_val_one]
    have h0 : (y 0).val = 0 := by have h : (y 0).val < 1 := (y 0).isLt; omega
    have h1 : (y 1).val = 0 := by have h : (y 1).val < 1 := (y 1).isLt; omega
    show 0 = (y 0).val * 1 + (y 1).val
    omega)

/-- At the exact instance the sum of an `[a, b]` array along its rows reads, at row `p`, `∑ k, src (p, k)`. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  refine Finset.sum_congr rfl fun k _ => congrArg src ?_
  funext c
  apply Fin.ext
  match c with
  | ⟨0, _⟩ => rfl
  | ⟨1, _⟩ => rfl

/-- At the exact instance the sum of an `[a, 1]` column down its one column reads `∑ k, src (k, 0)`. -/
theorem multiReduction_col_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (j : (⟨1, ![1]⟩ : Shape).Idx) :
    multiReduction .add [0] ⟨1, ![1]⟩ src acc h hφ hacc j = ∑ k : Fin a, src (ix2 k (0 : Fin 1)) := by
  rw [Ideal.multiReduction_add_single]
  refine Finset.sum_congr rfl fun k _ => congrArg src ?_
  funext c
  apply Fin.ext
  match c with
  | ⟨0, _⟩ => rfl
  | ⟨1, _⟩ =>
    have hj : (j (0 : Fin 1)).val < 1 := (j (0 : Fin 1)).isLt
    show (j (0 : Fin 1)).val = 0
    omega

end Cert.LibReduceLayout

end
-- ==== Proof.SumLaws.lean ====
/-
  Laws of finite sums over the extended reals, and the two constants of this certificate.

  The loss is a mean of logarithms. The kernel negates each logarithm, sums a block, scales the block's sum by
  2⁻²⁰ and accumulates the scaled sums; the reference sums all logarithms, divides by 2²⁰ and negates once. The two
  agree because (i) a non-negative real factor distributes over every finite sum of extended reals, (ii) negation
  distributes over a finite sum none of whose terms is +∞ (the logarithm of a finite number never is), and
  (iii) dividing by 2²⁰ is multiplying by 2⁻²⁰. Also here: a sum over 128 columns of which all but the labelled one
  are replaced by zero is the labelled entry.
-/
import Idealize.ShloMosaic.PureOps.Ideal
import Idealize.ShloMosaic.PureOps.Ideal.Laws

noncomputable section

namespace Cert.SumLaws

open Idealize.ShloMosaic

/-- A finite sum of extended reals none of which is `+∞` is not `+∞`. -/
theorem sum_ne_top {ι : Type*} (s : Finset ι) (f : ι → EReal) (hf : ∀ i ∈ s, f i ≠ ⊤) : ∑ i ∈ s, f i ≠ ⊤ := by
  classical
  induction s using Finset.induction_on with
  | empty => simp
  | insert a s ha ih =>
    rw [Finset.sum_insert ha]
    exact EReal.add_ne_top (hf a (Finset.mem_insert_self a s)) (ih fun i hi => hf i (Finset.mem_insert_of_mem hi))

/-- Negation distributes over a finite sum none of whose terms is `+∞`. -/
theorem neg_sum {ι : Type*} (s : Finset ι) (f : ι → EReal) (hf : ∀ i ∈ s, f i ≠ ⊤) :
    -(∑ i ∈ s, f i) = ∑ i ∈ s, -f i := by
  classical
  induction s using Finset.induction_on with
  | empty => simp
  | insert a s ha ih =>
    have hs : ∑ i ∈ s, f i ≠ ⊤ := sum_ne_top s f fun i hi => hf i (Finset.mem_insert_of_mem hi)
    rw [Finset.sum_insert ha, Finset.sum_insert ha,
      EReal.neg_add (Or.inr hs) (Or.inl (hf a (Finset.mem_insert_self a s))), sub_eq_add_neg,
      ih fun i hi => hf i (Finset.mem_insert_of_mem hi)]

/-- A non-negative real factor distributes over a finite sum of extended reals. -/
theorem coe_mul_sum {ι : Type*} (s : Finset ι) (k : ℝ) (hk : 0 ≤ k) (f : ι → EReal) :
    (k : EReal) * ∑ i ∈ s, f i = ∑ i ∈ s, (k : EReal) * f i := by
  classical
  induction s using Finset.induction_on with
  | empty => simp
  | insert a s ha ih =>
    rw [Finset.sum_insert ha, Finset.sum_insert ha,
      EReal.left_distrib_of_nonneg_of_ne_top (EReal.coe_nonneg.mpr hk) (EReal.coe_ne_top k), ih]

/-- The logarithm of an extended real other than `+∞` is not `+∞`. -/
theorem log_ne_top {x : EReal} (hx : x ≠ ⊤) : Ideal.log x ≠ ⊤ := by
  induction x using EReal.rec with
  | bot => show (⊥ : EReal) ≠ ⊤; exact bot_ne_top
  | top => exact absurd rfl hx
  | coe r =>
    show (if r ≤ 0 then (⊥ : EReal) else (Real.log r : EReal)) ≠ ⊤
    split
    · exact bot_ne_top
    · exact EReal.coe_ne_top _

/-- Zero minus an extended real is its negative. -/
theorem zero_sub' (x : EReal) : 0 - x = -x := by rw [sub_eq_add_neg, zero_add]

/-- The kernel's scale, the pattern of 2⁻²⁰, denotes the real 1/1048576. -/
theorem ofBits_inv_n : Ideal.ofBits .f32 0x35800000#32 = ((1 / 1048576 : ℝ) : EReal) := by
  simp [Ideal.ofBits, Ideal.ieee, -EReal.coe_mul]; norm_num

/-- The reference's divisor, the pattern of 2²⁰, denotes the real 1048576. -/
theorem ofBits_n : Ideal.ofBits .f32 0x49800000#32 = ((1048576 : ℝ) : EReal) := by
  simp [Ideal.ofBits, Ideal.ieee, -EReal.coe_mul]; norm_num

/-- Of 128 entries of which every one whose column is not the word `l` (below 128) is replaced by zero, the sum is the
    entry in column `l`. -/
theorem sum_onehot (l : BitVec 32) (hl : l.toNat < 128) (x : Fin 128 → EReal) :
    ∑ j : Fin 128, Scalar.select (IntOp.cmpi .eq (BitVec.ofNat 32 j.val) l) (x j) 0 = x ⟨l.toNat, hl⟩ := by
  rw [Finset.sum_eq_single (⟨l.toNat, hl⟩ : Fin 128)]
  · have : IntOp.cmpi .eq (BitVec.ofNat 32 l.toNat) l = 1#1 := by
      simp [IntOp.cmpi]
    show Scalar.select (IntOp.cmpi .eq (BitVec.ofNat 32 l.toNat) l) _ _ = _
    rw [this]; rfl
  · intro j _ hj
    have hne : BitVec.ofNat 32 j.val ≠ l := by
      intro h
      apply hj
      apply Fin.ext
      have := congrArg BitVec.toNat h
      simp only [BitVec.toNat_ofNat] at this
      have hj' := j.isLt
      show j.val = l.toNat
      omega
    have : IntOp.cmpi .eq (BitVec.ofNat 32 j.val) l = 0#1 := by
      simp only [IntOp.cmpi]; rw [beq_eq_false_iff_ne.mpr hne]; rfl
    rw [this]; rfl
  · intro h; exact absurd (Finset.mem_univ _) h

end Cert.SumLaws

end
-- ==== Proof.PayloadRead.lean ====
/-
  What one grid point adds to the running scalar, read as plain sums at the exact instance.

  A point holds a block of 8192 rows of 128 probabilities and the rows' 8192 labels, the labels laid out as 64 rows of
  128. For each row the body keeps the entry whose column is the row's label (every other entry replaced by zero) and
  sums the 128 columns; it regroups the 8192 row values as 64 × 128 (row 128·s + l goes to place (s, l)), takes the
  logarithm, negates it by subtracting from zero, sums the 128 lanes of each of the 64 rows, sums the 64 row sums, scales
  by the constant 2⁻²⁰ and adds the product to the running scalar it found.
-/
import proofs.«420422_j55989193670921_3_alg».proof.Proof.Gen.KernelIdeal.Skeleton
import proofs.«420422_j55989193670921_3_alg».proof.Proof.LibLayout
import proofs.«420422_j55989193670921_3_alg».proof.Proof.LibReduceLayout
import proofs.«420422_j55989193670921_3_alg».proof.Proof.SumLaws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

variable {F : FTy → Type} [FloatOps F]

/-- Row `128·s + l` of the block: the row that place `(s, l)` of the 64 × 128 regrouping holds. -/
abbrev brow (s : Fin 64) (l : Fin 128) : Fin 8192 := ⟨s.val * 128 + l.val, by have := s.isLt; have := l.isLt; omega⟩

/-- The label-selected entry of each row, summed over the columns, regrouped as 64 × 128. -/
def picked (x0 : Vec F S8192x128 .f32) (x1 : Vec F S64x128 .i32) : FVec F S64x128 .f32 :=
  shapeCast S64x128 (shapeCast S8192x1 (multiReduction .add [1] S8192
    (select (cmpi .eq (iota .tc S8192x128 32 [1] iota_S8192x128_d1_w32)
        (broadcastTo S8192x128 (shapeCast S8192x1 (shapeCast S64x128 x1 shapeCasts_S64x128_S64x128) shapeCasts_S64x128_S8192x1)
          broadcasts_S8192x1_S8192x128))
      x0 (broadcast S8192x128 (Scalar.ofBits .f32 0x00000000#32)))
    0x00000000#32 reduces_S8192x128_S8192 (.inl rfl) rfl) shapeCasts_S8192_S8192x1) shapeCasts_S8192x1_S64x128

/-- The block's sum of negated logarithms, as the body's one-entry matrix. -/
def blockSum (x0 : Vec F S8192x128 .f32) (x1 : Vec F S64x128 .i32) : FVec F S1x1 .f32 :=
  shapeCast S1x1 (multiReduction .add [0] S1 (shapeCast S64x1 (multiReduction .add [1] S64
    (subf (broadcast S64x128 (Scalar.ofBits .f32 0x00000000#32)) (log (picked x0 x1)))
    0x00000000#32 reduces_S64x128_S64 (.inl rfl) rfl) shapeCasts_S64_S64x1) 0x00000000#32 reduces_S64x1_S1 (.inl rfl) rfl)
    shapeCasts_S1_S1x1

/-- The stored scalar is the scalar found plus the block's sum times the scale: the body's operations, regrouped. -/
theorem pay2_eq (x0 : Vec F S8192x128 .f32) (x1 : Vec F S64x128 .i32) (acc : Vec F S1x1 .f32) :
    k0_pay2 x0 x1 acc
      = shapeCast S1x1 (addf acc (mulf (blockSum x0 x1) (broadcast S1x1 (Scalar.ofBits .f32 0x35800000#32)))) shapeCasts_S1x1_S1x1 :=
  rfl

/-- At place `(s, l)` the selected value is the sum over the columns `j` of the entry `(128·s + l, j)` where `j` is the
    label at `(s, l)` and of zero elsewhere. -/
theorem picked_apply (x0 : Vec Ideal S8192x128 .f32) (x1 : Vec Ideal S64x128 .i32) (s : Fin 64) (l : Fin 128) :
    picked (F := Ideal) x0 x1 (ix2 s l)
      = ∑ j : Fin 128, Scalar.select (IntOp.cmpi .eq (BitVec.ofNat 32 j.val) (x1 (ix2 s l))) (x0 (ix2 (brow s l) j)) 0 := by
  unfold picked
  rw [Cert.LibReduceLayout.shapeCast_n1_ab_apply _ _ s l (brow s l) rfl, Cert.LibLayout.shapeCast_a_a1_apply]
  refine (Cert.LibReduceLayout.multiReduction_rows_apply _ _ _ _ _ (brow s l)).trans ?_
  refine Finset.sum_congr rfl fun j _ => ?_
  show Scalar.select (IntOp.cmpi .eq (iota .tc S8192x128 32 [1] iota_S8192x128_d1_w32 (ix2 (brow s l) j))
      (broadcastTo S8192x128 (shapeCast S8192x1 (shapeCast S64x128 x1 shapeCasts_S64x128_S64x128) shapeCasts_S64x128_S8192x1)
        broadcasts_S8192x1_S8192x128 (ix2 (brow s l) j)))
    (x0 (ix2 (brow s l) j)) (Ideal.ofBits .f32 0x00000000#32) = _
  rw [iota_single_apply, Cert.LibLayout.broadcastTo_a1_ab_apply,
    Cert.LibReduceLayout.shapeCast_ab_n1_apply _ _ s l (brow s l) 0 rfl, shapeCast_self, Ideal.ofBits_zero_f32]

/-- The block's sum, anywhere in its one-entry matrix: over the 64 × 128 places, minus the logarithm of the selected
    value. -/
theorem blockSum_apply (x0 : Vec Ideal S8192x128 .f32) (x1 : Vec Ideal S64x128 .i32) (y : S1x1.Idx) :
    blockSum (F := Ideal) x0 x1 y
      = ∑ s : Fin 64, ∑ l : Fin 128, -(Ideal.log (picked (F := Ideal) x0 x1 (ix2 s l))) := by
  unfold blockSum
  rw [Cert.LibReduceLayout.shapeCast_1_11_apply]
  refine (Cert.LibReduceLayout.multiReduction_col_apply _ _ _ _ _ _).trans ?_
  refine Finset.sum_congr rfl fun s _ => ?_
  rw [Cert.LibLayout.shapeCast_a_a1_apply]
  refine (Cert.LibReduceLayout.multiReduction_rows_apply _ _ _ _ _ s).trans ?_
  refine Finset.sum_congr rfl fun l _ => ?_
  show Ideal.ofBits .f32 0x00000000#32 - Ideal.log (picked (F := Ideal) x0 x1 (ix2 s l)) = _
  rw [Ideal.ofBits_zero_f32, Cert.SumLaws.zero_sub']

/-- THE POINT'S STEP at the exact instance: the stored scalar is the scalar found plus the block's sum times 2⁻²⁰. -/
theorem pay2_apply (x0 : Vec Ideal S8192x128 .f32) (x1 : Vec Ideal S64x128 .i32) (acc : Vec Ideal S1x1 .f32) (y : S1x1.Idx) :
    k0_pay2 (F := Ideal) x0 x1 acc y
      = acc y + (∑ s : Fin 64, ∑ l : Fin 128, -(Ideal.log (picked (F := Ideal) x0 x1 (ix2 s l))))
          * ((1 / 1048576 : ℝ) : EReal) := by
  rw [pay2_eq, shapeCast_self]
  show acc y + blockSum (F := Ideal) x0 x1 y * Ideal.ofBits .f32 0x35800000#32 = _
  rw [blockSum_apply, Cert.SumLaws.ofBits_inv_n]

/-- The reset stores zero. -/
theorem pay1_apply (y : S1x1.Idx) : k0_pay1 (F := Ideal) y = 0 := by
  show shapeCast S1x1 (broadcast S1x1 (Scalar.ofBits (F := Ideal) .f32 0x00000000#32)) shapeCasts_S1x1_S1x1 y = 0
  rw [shapeCast_self]
  exact Ideal.ofBits_zero_f32

/-- The write-out copies the scalar into the one-entry output block. -/
theorem pay3_apply (v : Vec F S1x1 .f32) (z : S1x1x1.Idx) : k0_pay3 v z = v (ix2 (0 : Fin 1) (0 : Fin 1)) := by
  show shapeCast S1x1x1 v shapeCasts_S1x1_S1x1x1 z = _
  refine shapeCast_apply v _ z _ ?_
  rw [Shape.rowMajor_val_two, Shape.rowMajor_val_three]
  have h0 : (z 0).val < 1 := (z 0).isLt
  have h1 : (z 1).val < 1 := (z 1).isLt
  have h2 : (z 2).val < 1 := (z 2).isLt
  show 0 * 1 + 0 = ((z 0).val * 1 + (z 1).val) * 1 + (z 2).val
  omega

end Cert.KernelIdeal.Payload

end
-- ==== Proof.KernelValue.lean ====
/-
  What the kernel's output array holds after the run, at the exact instance.

  The grid is 2 cores × 64 points; point `n` (its core `n / 64`, its position `n % 64`) adds its block's contribution
  to a running scalar that is reset at position 0 and copied into entry `n / 64` of the output at position 63. So each
  of the two output entries is the sum of its core's 64 contributions.
-/
import proofs.«420422_j55989193670921_3_alg».proof.Proof.Gen.KernelIdeal.Frame
import proofs.«420422_j55989193670921_3_alg».proof.Proof.Pieces
import proofs.«420422_j55989193670921_3_alg».proof.Proof.PayloadRead
import Idealize.ShloMosaic.Lib.Pipeline.Value

noncomputable section

namespace Cert.KernelIdeal.KValue

open Cert.KernelIdeal Cert.KernelIdeal.Gen Cert.KernelIdeal.Payload Cert.KernelIdeal.Pieces
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Point `t`'s block of probabilities and its block of labels, at their literal types. -/
abbrev xblk (c : Dev nD) (t : Fin cfg0.N) : Vec Ideal S8192x128 .f32 := iblk m c 0 t
abbrev lblk (c : Dev nD) (t : Fin cfg0.N) : Vec Ideal S64x128 .i32 := iblk m c 1 t

/-- What point `n` adds to the running scalar (zero past the grid). -/
def contrib (c : Dev nD) (n : ℕ) : EReal :=
  if h : n < cfg0.N then
    (∑ s : Fin 64, ∑ l : Fin 128, -(Ideal.log (picked (F := Ideal) (xblk m c ⟨n, h⟩) (lblk m c ⟨n, h⟩) (ix2 s l))))
      * ((1 / 1048576 : ℝ) : EReal)
  else 0

theorem contrib_of_lt (c : Dev nD) (n : ℕ) (h : n < cfg0.N) : contrib m c n
    = (∑ s : Fin 64, ∑ l : Fin 128, -(Ideal.log (picked (F := Ideal) (xblk m c ⟨n, h⟩) (lblk m c ⟨n, h⟩) (ix2 s l))))
      * ((1 / 1048576 : ℝ) : EReal) := dif_pos h

/-- At the first point of a core's run the scalar ends at that point's contribution. -/
theorem scratch_reset (c : Dev nD) (n : ℕ) (h : n < cfg0.N) (h0 : n % 64 = 0) (y : S1x1.Idx) :
    (outsAt0 m c n h).2 y = contrib m c n := by
  have hN : cfg0.N = 128 := N_0
  have h1 : ¬(⟨n, h⟩ : Fin cfg0.N).val % 64 = 63 := by dsimp only; omega
  rw [outsAt0_A m c ⟨n, h⟩ h0 h1]
  dsimp only
  refine (congrFun (sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) _ _ (xblk m c ⟨n, h⟩) (lblk m c ⟨n, h⟩)) y).trans ?_
  refine (pay2_apply (xblk m c ⟨n, h⟩) (lblk m c ⟨n, h⟩) (k0_pay1 (F := Ideal)) y).trans ?_
  rw [pay1_apply, zero_add, contrib_of_lt m c n h]

/-- At any other point it ends at what the point before left plus the point's contribution. -/
theorem scratch_succ (c : Dev nD) (n : ℕ) (h : n + 1 < cfg0.N) (h0 : ¬(n + 1) % 64 = 0) (y : S1x1.Idx) :
    (outsAt0 m c (n + 1) h).2 y = (outsAt0 m c n (Nat.lt_of_succ_lt h)).2 y + contrib m c (n + 1) := by
  have hN : cfg0.N = 128 := N_0
  by_cases h1 : (n + 1) % 64 = 63
  · rw [outsAt0_C m c ⟨n + 1, h⟩ h0 h1]
    dsimp only
    refine (congrFun (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (xblk m c ⟨n + 1, h⟩) (lblk m c ⟨n + 1, h⟩)
      (outsAt0 m c n (Nat.lt_of_succ_lt h)).2) y).trans ?_
    refine (pay2_apply (xblk m c ⟨n + 1, h⟩) (lblk m c ⟨n + 1, h⟩) (outsAt0 m c n (Nat.lt_of_succ_lt h)).2 y).trans ?_
    rw [contrib_of_lt m c (n + 1) h]
  · rw [outsAt0_B m c ⟨n + 1, h⟩ h0 h1]
    dsimp only
    refine (congrFun (sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (xblk m c ⟨n + 1, h⟩) (lblk m c ⟨n + 1, h⟩)
      (outsAt0 m c n (Nat.lt_of_succ_lt h)).2) y).trans ?_
    refine (pay2_apply (xblk m c ⟨n + 1, h⟩) (lblk m c ⟨n + 1, h⟩) (outsAt0 m c n (Nat.lt_of_succ_lt h)).2 y).trans ?_
    rw [contrib_of_lt m c (n + 1) h]

/-- So after point `n` the scalar is the sum of the contributions of its core's points up to `n`. -/
theorem scratch_eq (c : Dev nD) : ∀ (n : ℕ) (h : n < cfg0.N) (y : S1x1.Idx),
    (outsAt0 m c n h).2 y = ∑ j ∈ Finset.range (n % 64 + 1), contrib m c (n / 64 * 64 + j)
  | 0, h, y => by
    rw [scratch_reset m c 0 h rfl y]
    simp
  | n + 1, h, y => by
    by_cases h0 : (n + 1) % 64 = 0
    · rw [scratch_reset m c (n + 1) h h0 y, h0, Finset.sum_range_one]
      congr 1
      omega
    · have e1 : (n + 1) % 64 = n % 64 + 1 := by omega
      have e2 : (n + 1) / 64 = n / 64 := by omega
      have e3 : n / 64 * 64 + (n % 64 + 1) = n + 1 := by omega
      rw [scratch_succ m c n h h0 y, scratch_eq c n (Nat.lt_of_succ_lt h) y, e1, e2,
        Finset.sum_range_succ _ (n % 64 + 1), e3]

/-- At the last point of a core's run the output block receives the scalar. -/
theorem out_last (c : Dev nD) (n : ℕ) (h : n < cfg0.N) (h1 : n % 64 = 63) (z : S1x1x1.Idx) :
    (outsAt0 m c n h).1 z = (outsAt0 m c n h).2 (ix2 (0 : Fin 1) (0 : Fin 1)) := by
  have h0 : ¬(⟨n, h⟩ : Fin cfg0.N).val % 64 = 0 := by dsimp only; omega
  rw [outsAt0_C m c ⟨n, h⟩ h0 h1]
  dsimp only
  refine (congrFun (out_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) _ _ (xblk m c ⟨n, h⟩) (lblk m c ⟨n, h⟩)
    (outsAt0 m c ((⟨n, h⟩ : Fin cfg0.N).val - 1) (Nat.lt_of_le_of_lt (Nat.sub_le _ _) h)).2) z).trans ?_
  rw [pay3_apply]
  exact (congrFun (sout_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) _ _ (xblk m c ⟨n, h⟩) (lblk m c ⟨n, h⟩)
    (outsAt0 m c ((⟨n, h⟩ : Fin cfg0.N).val - 1) (Nat.lt_of_le_of_lt (Nat.sub_le _ _) h)).2) _).symm

/-- THE OUTPUT ARRAY: entry `q` is the sum of the 64 contributions of core `q`. -/
def outVec (c : Dev nD) : S2x1x1.Idx → EReal :=
  fun i => ∑ j ∈ Finset.range 64, contrib m c ((i 0).val * 64 + j)

/-- The same, as contents of the output buffer. -/
abbrev outArr (c : Dev nD) : Buf (Elt Ideal) ((c : Thread nD τ).loc main_v1) := outVec m c

/-- The output window's block index on axis 0 is the point's core. -/
theorem idx_core : ∀ t : Fin cfg0.N, win0_2.index t (0 : Fin 3) = t.val / 64 :=
  (by decide +kernel : ∀ t : Fin grid0.N, win0_2.index t (0 : Fin 3) = t.val / 64)

/-- What a write-back point writes is its block of the output array. -/
theorem flushed_eq (c : Dev nD) (t : Fin cfg0.N) (hf : (cfg0.win 2).flush t = true) :
    (dats m 0 c).flushed 2 t = ((cfg0.win 2).blk t).view.read (Elt Ideal) (outArr m c) := by
  have h63 : t.val % 64 = 63 := (flush0_2 t).mp hf
  show (cfg0.win 2).cut (grid0.coords t) ((dats m 0 c).after 2 t) = _
  rw [after0_2]
  funext z
  refine (out_last m c t.val t.isLt h63 z).trans ?_
  rw [scratch_eq m c t.val t.isLt, h63]
  show _ = outVec m c (((cfg0.win 2).blk t).view.emb z)
  unfold outVec
  have he : ((((cfg0.win 2).blk t).view.emb z) 0).val = t.val / 64 := by
    show win0_2.index t (0 : Fin 3) * 1 + 1 * (z 0).val = _
    have hz : (z 0).val < 1 := (z 0).isLt
    rw [idx_core t]; omega
  rw [he]

/-- An index of the output array is in point `t`'s block iff its first coordinate is the point's core. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v1).slice (win0_2.rect t)).set ↔ _
  rw [View.set_slice_whole, Rect.mem_set_unit]
  exact Iff.rfl

theorem idx_rest : ∀ t : Fin cfg0.N, win0_2.index t (1 : Fin 3) = 0 ∧ win0_2.index t (2 : Fin 3) = 0 :=
  (by decide +kernel : ∀ t : Fin grid0.N, win0_2.index t (1 : Fin 3) = 0 ∧ win0_2.index t (2 : Fin 3) = 0)

/-- Every entry of the output array is written back by the last point of its core's run. -/
theorem cover (c : Dev nD) (i : S2x1x1.Idx) :
    ∃ t : Fin cfg0.N, (cfg0.win 2).flush t = true ∧ i ∈ ((cfg0.win 2).blk t).view.set := by
  have hN : cfg0.N = 128 := N_0
  have hi0 : (i 0).val < 2 := (i 0).isLt
  have hi1 : (i 1).val < 1 := (i 1).isLt
  have hi2 : (i 2).val < 1 := (i 2).isLt
  refine ⟨⟨(i 0).val * 64 + 63, by omega⟩, (flush0_2 _).mpr (by dsimp only; omega), ?_⟩
  rw [mem_blk]
  have e0 := idx_core ⟨(i 0).val * 64 + 63, by omega⟩
  obtain ⟨e1, e2⟩ := idx_rest ⟨(i 0).val * 64 + 63, by omega⟩
  intro a
  match a with
  | ⟨0, _⟩ =>
    show win0_2.index _ (0 : Fin 3) * 1 ≤ (i 0).val ∧ (i 0).val < win0_2.index _ (0 : Fin 3) * 1 + 1
    rw [e0]; dsimp only; omega
  | ⟨1, _⟩ =>
    show win0_2.index _ (1 : Fin 3) * 1 ≤ (i 1).val ∧ (i 1).val < win0_2.index _ (1 : Fin 3) * 1 + 1
    rw [e1]; omega
  | ⟨2, _⟩ =>
    show win0_2.index _ (2 : Fin 3) * 1 ≤ (i 2).val ∧ (i 2).val < win0_2.index _ (2 : Fin 3) * 1 + 1
    rw [e2]; omega

/-- The output array after the region. -/
theorem final_out (c : Dev nD) : (dats m 0 c).arrAt 2 cfg0.N = outArr m c :=
  (dats m 0 c).arrAt_eq_of_cover 2 (outArr m c) (flushed_eq m c) (cover c)

end Cert.KernelIdeal.KValue

end
-- ==== Proof.LossSpec.lean ====
/-
  The loss both programs compute, as one function of the two inputs at the exact instance, and the laws that bring each
  program's arrangement to it.

  Row `r` of the 1048576 × 128 probabilities contributes the logarithm of the entry in the column its label names. The
  loss is minus the sum of all rows' logarithms scaled by 2⁻²⁰. The kernel adds up, over 128 blocks of 8192 rows, each
  block's sum of negated logarithms times 2⁻²⁰; the reference divides the sum of all logarithms by 2²⁰ and negates.
-/
import proofs.«420422_j55989193670921_3_alg».proof.Proof.SumLaws
import Idealize.ShloMosaic.Lib.ValueIdx

noncomputable section

namespace Cert.LossSpec

open Idealize.ShloMosaic Idealize.ShloMosaic.ValueIdx

/-- The column a label word names (the word read unsigned, reduced into the 128 columns). -/
def col (l : BitVec 32) : Fin 128 := ⟨l.toNat % 128, Nat.mod_lt _ (by decide)⟩

/-- A label below 128 names its own column. -/
theorem col_of_lt (l : BitVec 32) (hl : l.toNat < 128) : col l = ⟨l.toNat, hl⟩ :=
  Fin.ext (Nat.mod_eq_of_lt hl)

/-- Row `r`'s logarithm of its labelled probability (zero past the last row). -/
def rowLog (X : (⟨2, ![1048576, 128]⟩ : Shape).Idx → EReal) (L : (⟨1, ![1048576]⟩ : Shape).Idx → BitVec 32) (r : ℕ) : EReal :=
  if h : r < 1048576 then Ideal.log (X (ix2 ⟨r, h⟩ (col (L (ix1 ⟨r, h⟩))))) else 0

theorem rowLog_of_lt (X : (⟨2, ![1048576, 128]⟩ : Shape).Idx → EReal) (L : (⟨1, ![1048576]⟩ : Shape).Idx → BitVec 32)
    (r : ℕ) (h : r < 1048576) : rowLog X L r = Ideal.log (X (ix2 ⟨r, h⟩ (col (L (ix1 ⟨r, h⟩))))) := dif_pos h

/-- No row's logarithm is `+∞` when no probability is. -/
theorem rowLog_ne_top (X : (⟨2, ![1048576, 128]⟩ : Shape).Idx → EReal) (L : (⟨1, ![1048576]⟩ : Shape).Idx → BitVec 32)
    (hX : ∀ i, X i ≠ ⊤) (r : ℕ) : rowLog X L r ≠ ⊤ := by
  unfold rowLog
  split
  · exact Cert.SumLaws.log_ne_top (hX _)
  · exact EReal.zero_ne_top

/-- THE LOSS: minus 2⁻²⁰ times the sum of the rows' logarithms. -/
def loss (X : (⟨2, ![1048576, 128]⟩ : Shape).Idx → EReal) (L : (⟨1, ![1048576]⟩ : Shape).Idx → BitVec 32) : EReal :=
  -(((1 / 1048576 : ℝ) : EReal) * ∑ r ∈ Finset.range 1048576, rowLog X L r)

/-- A sum over `a·b` consecutive terms is the sum over `a` groups of `b`. -/
theorem sum_range_mul (f : ℕ → EReal) (a b : ℕ) :
    ∑ r ∈ Finset.range (a * b), f r = ∑ p ∈ Finset.range a, ∑ q ∈ Finset.range b, f (p * b + q) := by
  induction a with
  | zero => simp
  | succ a ih => rw [Nat.succ_mul, Finset.sum_range_add, ih, Finset.sum_range_succ]

/-- THE KERNEL'S ARRANGEMENT: the sum over 128 blocks of (the block's 8192 negated logarithms, summed, times 2⁻²⁰) is
    the loss, when no row's logarithm is `+∞`. -/
theorem blocks_eq_loss (X : (⟨2, ![1048576, 128]⟩ : Shape).Idx → EReal) (L : (⟨1, ![1048576]⟩ : Shape).Idx → BitVec 32)
    (hX : ∀ i, X i ≠ ⊤) :
    ∑ n ∈ Finset.range 128, (∑ u ∈ Finset.range 8192, -rowLog X L (n * 8192 + u)) * ((1 / 1048576 : ℝ) : EReal)
      = loss X L := by
  have hk : (0 : ℝ) ≤ 1 / 1048576 := by norm_num
  unfold loss
  rw [← mul_neg, Cert.SumLaws.neg_sum _ _ (fun r _ => rowLog_ne_top X L hX r),
    show (1048576 : ℕ) = 128 * 8192 from rfl, sum_range_mul, Cert.SumLaws.coe_mul_sum _ _ hk]
  refine Finset.sum_congr rfl fun n _ => ?_
  rw [mul_comm]

/-- THE REFERENCE'S ARRANGEMENT: zero plus the sum of the logarithms, divided by 2²⁰, negated, is the loss. -/
theorem mean_eq_loss (X : (⟨2, ![1048576, 128]⟩ : Shape).Idx → EReal) (L : (⟨1, ![1048576]⟩ : Shape).Idx → BitVec 32) :
    -(Ideal.div (0 + ∑ r ∈ Finset.range 1048576, rowLog X L r) ((1048576 : ℝ) : EReal)) = loss X L := by
  unfold loss
  rw [zero_add, Ideal.div_coe (by norm_num : (1048576 : ℝ) ≠ 0), mul_comm]

end Cert.LossSpec

end
-- ==== Proof.LabelWords.lean ====
/-
  A label word in its range. A 32-bit label `l` with `0 ≤ l < 128` read signed is below 128 read unsigned, the two
  readings agree, it is not negative, and it lies between the bounds 0 and 127 that the reference tests before it
  indexes a row's 128 columns.
-/
import Idealize.ShloMosaic.PureOps.Ideal
import Idealize.ShloMosaic.Lib.Affine

namespace Cert.LabelWords

open Idealize.ShloMosaic

/-- The two signed comparisons of the label range, read as bounds on the signed value. -/
theorem range_of_cmp (l : BitVec 32) (h0 : IntOp.cmpi .sge l 0#32 = 1#1) (h1 : IntOp.cmpi .slt l 128#32 = 1#1) :
    0 ≤ l.toInt ∧ l.toInt < 128 := by
  simp only [IntOp.cmpi] at h0 h1
  have e0 : (0#32 : BitVec 32).sle l = true := by
    cases h : (0#32 : BitVec 32).sle l
    · rw [h] at h0; exact absurd h0 (by decide)
    · rfl
  have e1 : l.slt 128#32 = true := by
    cases h : l.slt 128#32
    · rw [h] at h1; exact absurd h1 (by decide)
    · rfl
  rw [BitVec.sle, decide_eq_true_eq] at e0
  rw [BitVec.slt, decide_eq_true_eq] at e1
  have z : (0#32 : BitVec 32).toInt = 0 := by decide
  have z' : (128#32 : BitVec 32).toInt = 128 := by decide
  omega

/-- A word whose signed value is in `[0, 128)` has that same unsigned value. -/
theorem toNat_of_range (l : BitVec 32) (h0 : 0 ≤ l.toInt) (h1 : l.toInt < 128) : l.toNat < 128 ∧ l.toInt.toNat = l.toNat := by
  have h := BitVec.toInt_eq_toNat_cond l
  have hl := l.isLt
  split at h <;> omega

/-- A non-negative label is not below zero. -/
theorem slt_zero (l : BitVec 32) (h0 : 0 ≤ l.toInt) : IntOp.cmpi .slt l 0#32 = 0#1 := by
  have z : (0#32 : BitVec 32).toInt = 0 := by decide
  have : l.slt 0#32 = false := by rw [BitVec.slt, decide_eq_false_iff_not, z]; omega
  simp only [IntOp.cmpi, this]; rfl

/-- A non-negative label is at least zero. -/
theorem sge_zero (l : BitVec 32) (h0 : 0 ≤ l.toInt) : IntOp.cmpi .sge l 0#32 = 1#1 := by
  have z : (0#32 : BitVec 32).toInt = 0 := by decide
  have : (0#32 : BitVec 32).sle l = true := by rw [BitVec.sle, decide_eq_true_eq, z]; exact h0
  simp only [IntOp.cmpi, this]; rfl

/-- A label below 128 is at most 127. -/
theorem sle_127 (l : BitVec 32) (h1 : l.toInt < 128) : IntOp.cmpi .sle l 127#32 = 1#1 := by
  have z : (127#32 : BitVec 32).toInt = 127 := by decide
  have : l.sle 127#32 = true := by rw [BitVec.sle, decide_eq_true_eq, z]; omega
  simp only [IntOp.cmpi, this]; rfl

end Cert.LabelWords
-- ==== Proof.KernelRun.lean ====
/-
  The kernel program's result at the exact instance is the loss of its two arguments.

  After the region the host sums the two output entries from zero. Entry `q` is the sum of core `q`'s 64 contributions;
  point `n`'s block holds rows `8192·n … 8192·n + 8191` of the probabilities and, through the host's row-major
  regrouping of the labels as 8192 × 128, the same rows' labels, place `(s, l)` of the label block being row
  `8192·n + 128·s + l`. A label in `[0, 128)` selects exactly its column, so the point's contribution is the sum of its
  8192 rows' negated logarithms times 2⁻²⁰, and the 128 contributions add up to the loss.
-/
import proofs.«420422_j55989193670921_3_alg».proof.Proof.Gen.KernelIdeal.Frame
import proofs.«420422_j55989193670921_3_alg».proof.Proof.KernelValue
import proofs.«420422_j55989193670921_3_alg».proof.Proof.LossSpec
import proofs.«420422_j55989193670921_3_alg».proof.Proof.LabelWords
import Idealize.ShloMosaic.Lib.Pipeline.Value
import Idealize.ShloMosaic.Lib.StableHlo.Run
import Idealize.ShloMosaic.Lib.ValueIdxRank1

noncomputable section

namespace Cert.KernelIdeal.KValue

open Cert.KernelIdeal Cert.KernelIdeal.Gen Cert.KernelIdeal.Payload Cert.LossSpec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The two arguments as the arrays they are: the probabilities and the labels. -/
abbrev argX (c : Dev nD) : (⟨2, ![1048576, 128]⟩ : Shape).Idx → EReal := m ((c : Thread nD τ).loc main_arg0)
abbrev argL (c : Dev nD) : (⟨1, ![1048576]⟩ : Shape).Idx → BitVec 32 := m ((c : Thread nD τ).loc main_arg1)

/-- The program's result: the host's sum, from zero, of the output array. -/
def result (c : Dev nD) : Buf (Elt Ideal) ((c : Thread nD τ).loc main_v2) :=
  Host.reduceAdd (F := Ideal) (outArr m c) (constant S_ .f32 0x00000000#32) reducesTo_S2x1x1_S_d0_1_2 h_S_

/-- The lines after the region compute it from the output array the region left. -/
theorem tail_eq (c : Dev nD) : Pipeline.afterTail₀ cfgs (dats m) 0 (V0 m) [hostOps1] c main_v2 = result m c := by
  unfold Pipeline.afterTail₀
  show StableHlo.after hostOps1 _ (Proc.devRef .tc main_v2) = _
  after_results
  exact congrArg (fun a => Host.reduceAdd (F := Ideal) a (constant S_ .f32 0x00000000#32) reducesTo_S2x1x1_S_d0_1_2 h_S_)
    ((Pipeline.withArrays_arr spec0 launch0.win.arr_inj c _ _ 2).trans (final_out m c))

/-- The region finds the labels regrouped row-major as 8192 × 128. -/
theorem labels_eq (c : Dev nD) : (V m c main_v0 : S8192x128.Idx → BitVec 32)
    = shapeCast S8192x128 (m ((c : Thread nD τ).loc main_arg1)) shapeCasts_S1048576_S8192x128 := by
  show StableHlo.after hostOps0 (fun b => m (c, b)) (Proc.devRef .tc main_v0) = _
  after_results
  rfl

/-- The input windows' block indices: block `t` on the row axis, block 0 on the column axis. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Row `8192·t + p` of the arrays, for a row `p` of point `t`'s block. -/
abbrev grow (t : Fin cfg0.N) (p : Fin 8192) : Fin 1048576 :=
  ⟨t.val * 8192 + p.val, by have := t.isLt; have hN : cfg0.N = 128 := N_0; have := p.isLt; omega⟩

/-- Point `t`'s block of probabilities reads rows `8192·t …` of the argument. -/
theorem xblk_apply (c : Dev nD) (t : Fin cfg0.N) (p : Fin 8192) (j : Fin 128) :
    xblk m c t (ix2 p j) = m ((c : Thread nD τ).loc main_arg0) (ix2 (grow t p) j) := by
  obtain ⟨e0, e1, -, -⟩ := idx_in t
  unfold xblk iblk
  rw [View.read_apply]
  show V m c main_arg0 (((cfg0.win 0).blk t).view.emb (ix2 p j)) = _
  refine (congrFun (V_main_arg0 m c) _).trans (congrArg (m ((c : Thread nD τ).loc main_arg0)) ?_)
  funext a
  apply Fin.ext
  match a with
  | ⟨0, _⟩ => show win0_0.index t (0 : Fin 2) * 8192 + 1 * p.val = t.val * 8192 + p.val; rw [e0]; omega
  | ⟨1, _⟩ => show win0_0.index t (1 : Fin 2) * 128 + 1 * j.val = j.val; rw [e1]; omega

/-- Point `t`'s block of labels at place `(s, l)` is the label of row `8192·t + 128·s + l`. -/
theorem lblk_apply (c : Dev nD) (t : Fin cfg0.N) (s : Fin 64) (l : Fin 128) :
    lblk m c t (ix2 s l) = m ((c : Thread nD τ).loc main_arg1) (ix1 (grow t (brow s l))) := by
  obtain ⟨-, -, e0, e1⟩ := idx_in t
  have hN : cfg0.N = 128 := N_0
  unfold lblk iblk
  rw [View.read_apply]
  show V m c main_v0 (((cfg0.win 1).blk t).view.emb (ix2 s l)) = _
  refine (congrFun (labels_eq m c) _).trans ?_
  refine shapeCast_apply _ _ _ _ ?_
  show (S1048576.rowMajor (ix1 (grow t (brow s l)))).val = (S8192x128.rowMajor (((cfg0.win 1).blk t).view.emb (ix2 s l))).val
  rw [Shape.rowMajor_val_one, Shape.rowMajor_val_two]
  show t.val * 8192 + (s.val * 128 + l.val) = (win0_1.index t (0 : Fin 2) * 64 + 1 * s.val) * 128 + (win0_1.index t (1 : Fin 2) * 128 + 1 * l.val)
  rw [e0, e1]; omega

section Bridge

variable (c : Dev nD)
variable (hL : ∀ i, 0 ≤ (argL m c i).toInt ∧ (argL m c i).toInt < 128)
include hL

/-- With its label in range, the selected value at place `(s, l)` of point `t` is the labelled probability of row
    `8192·t + 128·s + l`. -/
theorem picked_eq (t : Fin cfg0.N) (s : Fin 64) (l : Fin 128) :
    picked (F := Ideal) (xblk m c t) (lblk m c t) (ix2 s l)
      = m ((c : Thread nD τ).loc main_arg0) (ix2 (grow t (brow s l))
          (col (m ((c : Thread nD τ).loc main_arg1) (ix1 (grow t (brow s l)))))) := by
  have hl := (Cert.LabelWords.toNat_of_range _ (hL (ix1 (grow t (brow s l)))).1 (hL (ix1 (grow t (brow s l)))).2).1
  rw [picked_apply, lblk_apply, Finset.sum_congr rfl (fun j _ => by rw [xblk_apply])]
  rw [Cert.SumLaws.sum_onehot _ hl (fun j => m ((c : Thread nD τ).loc main_arg0) (ix2 (grow t (brow s l)) j)), col_of_lt _ hl]

/-- So point `n`'s contribution is the sum of its 8192 rows' negated logarithms, times 2⁻²⁰. -/
theorem contrib_eq (n : ℕ) (h : n < cfg0.N) :
    contrib m c n = (∑ u ∈ Finset.range 8192,
        -rowLog (m ((c : Thread nD τ).loc main_arg0)) (m ((c : Thread nD τ).loc main_arg1)) (n * 8192 + u))
      * ((1 / 1048576 : ℝ) : EReal) := by
  have hN : cfg0.N = 128 := N_0
  rw [contrib_of_lt m c n h]
  congr 1
  rw [show (8192 : ℕ) = 64 * 128 from rfl,
    sum_range_mul (fun u => -rowLog (m ((c : Thread nD τ).loc main_arg0)) (m ((c : Thread nD τ).loc main_arg1)) (n * 8192 + u)) 64 128,
    ← Fin.sum_univ_eq_sum_range (fun p => ∑ q ∈ Finset.range 128,
      -rowLog (m ((c : Thread nD τ).loc main_arg0)) (m ((c : Thread nD τ).loc main_arg1)) (n * 8192 + (p * 128 + q))) 64]
  refine Finset.sum_congr rfl fun s _ => ?_
  rw [← Fin.sum_univ_eq_sum_range (fun q =>
      -rowLog (m ((c : Thread nD τ).loc main_arg0)) (m ((c : Thread nD τ).loc main_arg1)) (n * 8192 + (s.val * 128 + q))) 128]
  refine Finset.sum_congr rfl fun l _ => ?_
  have hr : n * 8192 + (s.val * 128 + l.val) < 1048576 := by have := s.isLt; have := l.isLt; omega
  rw [picked_eq m c hL ⟨n, h⟩ s l, rowLog_of_lt _ _ _ hr]

/-- THE KERNEL PROGRAM'S RESULT is the loss of its arguments. -/
theorem result_eq (hX : ∀ i, argX m c i ≠ ⊤) (i : S_.Idx) :
    result m c i = loss (argX m c) (argL m c) := by
  have hN : cfg0.N = 128 := N_0
  unfold result
  simp only [Host.reduceAdd, Ideal.hostReduceAdd_def]
  rw [Ideal.hostReduceAdd_total reducesTo_S2x1x1_S_d0_1_2 (fun b => b.elim0)]
  show Ideal.ofBits .f32 0x00000000#32 + ∑ j : S2x1x1.Idx, outVec m c j = _
  rw [Ideal.ofBits_zero_f32, zero_add, ← blocks_eq_loss _ _ hX, show (128 : ℕ) = 2 * 64 from rfl, sum_range_mul _ 2 64]
  -- the two output entries, as a sum over the core index
  have e : ∑ j : S2x1x1.Idx, outVec m c j = ∑ q : Fin 2, outVec m c (ix3 q (0 : Fin 1) (0 : Fin 1)) := by
    refine Fintype.sum_equiv ⟨fun j => j 0, fun q => ix3 q (0 : Fin 1) (0 : Fin 1), fun j => ?_, fun q => rfl⟩ _ _ fun j => ?_
    · funext a
      match a with
      | ⟨0, _⟩ => rfl
      | ⟨1, _⟩ => exact Fin.ext (by have h1 : (j 1).val < 1 := (j 1).isLt; show 0 = (j 1).val; omega)
      | ⟨2, _⟩ => exact Fin.ext (by have h2 : (j 2).val < 1 := (j 2).isLt; show 0 = (j 2).val; omega)
    · show outVec m c j = outVec m c (ix3 (j 0) (0 : Fin 1) (0 : Fin 1))
      unfold outVec
      rfl
  rw [e, ← Fin.sum_univ_eq_sum_range (fun p => ∑ q ∈ Finset.range 64,
    (∑ u ∈ Finset.range 8192, -rowLog (m ((c : Thread nD τ).loc main_arg0)) (m ((c : Thread nD τ).loc main_arg1)) ((p * 64 + q) * 8192 + u))
      * ((1 / 1048576 : ℝ) : EReal)) 2]
  refine Finset.sum_congr rfl fun q _ => ?_
  unfold outVec
  refine Finset.sum_congr rfl fun j hj => ?_
  have hj' : j < 64 := Finset.mem_range.mp hj
  exact contrib_eq m c hL _ (by have := q.isLt; show q.val * 64 + j < cfg0.N; omega)

end Bridge

/-- THE RUN, READ: the result buffer ends at `result`, the arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.RefRun.lean ====
/-
  The reference program's run, read back: every weakly fair execution of @main ends with the result buffer at the
  last stage's value of the two arguments and the arguments unchanged.

  @main's thirty operations are read in four stretches — the start indices (the labels, wrapped where negative); the range
  test; the take and the select that keeps it where the test passed; the logarithm, the sum, the quotient and the
  negation — each stretch's result stated over the stage values of the stretch before.
-/
import proofs.«420422_j55989193670921_3_alg».proof.Proof.Gen.ReferenceIdeal
import proofs.«420422_j55989193670921_3_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first stretch: the labels as a column, wrapped where negative, as start indices. -/
abbrev ops1 : List (HloOp τ sig (Elt F)) :=
  [ unary main_arg1 main_v0 (broadcastInDim S1048576x1 ![0] bcast_S1048576_S1048576x1_0 : (⟨S1048576, .i32⟩ : BufTy).Contents (Elt F) → (⟨S1048576x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S1048576x1, .i32⟩) main_call0_v0) (broadcastInDim S1048576x1 ![] bcast_S_S1048576x1),
    TRef.binary (TRef.of (T := ⟨S1048576x1, .i32⟩) main_v0) (TRef.of (T := ⟨S1048576x1, .i32⟩) main_call0_v0) (TRef.of (T := ⟨S1048576x1, .i1⟩) main_call0_v1) (cmpi .slt),
    TRef.nullary (TRef.of (T := ⟨S_, .i32⟩) main_call0_c_0) (constantI S_ 32 128#32),
    TRef.unary (TRef.of (T := ⟨S_, .i32⟩) main_call0_c_0) (TRef.of (T := ⟨S1048576x1, .i32⟩) main_call0_v2) (broadcastInDim S1048576x1 ![] bcast_S_S1048576x1),
    TRef.binary (TRef.of (T := ⟨S1048576x1, .i32⟩) main_v0) (TRef.of (T := ⟨S1048576x1, .i32⟩) main_call0_v2) (TRef.of (T := ⟨S1048576x1, .i32⟩) main_call0_v3) addi,
    TRef.ternary (TRef.of (T := ⟨S1048576x1, .i1⟩) main_call0_v1) (TRef.of (T := ⟨S1048576x1, .i32⟩) main_call0_v3) (TRef.of (T := ⟨S1048576x1, .i32⟩) main_v0) (TRef.of (T := ⟨S1048576x1, .i32⟩) main_call0_v4) select,
    TRef.reshape (TRef.of (T := ⟨S1048576x1, .i32⟩) main_call0_v4) (TRef.of (T := ⟨S1048576x1x1, .i32⟩) main_call0_v5) rfl shapeCasts_S1048576x1_S1048576x1x1 ]
/-- The second stretch: the test of the start indices against `[0, 127]`. -/
abbrev ops2 : List (HloOp τ sig (Elt F)) :=
  [ TRef.nullary (TRef.of (T := ⟨S1, .i32⟩) main_call0_c_1) (constantI S1 32 127#32),
    TRef.nullary (TRef.of (T := ⟨S_, .i32⟩) main_call0_c_2) (constantI S_ 32 0#32),
    TRef.unary (TRef.of (T := ⟨S_, .i32⟩) main_call0_c_2) (TRef.of (T := ⟨S1048576x1x1, .i32⟩) main_call0_v6) (broadcastInDim S1048576x1x1 ![] bcast_S_S1048576x1x1),
    TRef.binary (TRef.of (T := ⟨S1048576x1x1, .i32⟩) main_call0_v5) (TRef.of (T := ⟨S1048576x1x1, .i32⟩) main_call0_v6) (TRef.of (T := ⟨S1048576x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S1048576x1x1, .i32⟩) main_call0_v9) (broadcastInDim S1048576x1x1 ![0, 1, 2] bcast_S1x1x1_S1048576x1x1_0_1_2),
    TRef.binary (TRef.of (T := ⟨S1048576x1x1, .i32⟩) main_call0_v5) (TRef.of (T := ⟨S1048576x1x1, .i32⟩) main_call0_v9) (TRef.of (T := ⟨S1048576x1x1, .i1⟩) main_call0_v10) (cmpi .sle),
    TRef.binary (TRef.of (T := ⟨S1048576x1x1, .i1⟩) main_call0_v7) (TRef.of (T := ⟨S1048576x1x1, .i1⟩) main_call0_v10) (TRef.of (T := ⟨S1048576x1x1, .i1⟩) main_call0_v11) andi,
    TRef.nullary (TRef.of (T := ⟨S_, .i1⟩) main_call0_c_3) (constantI S_ 1 1#1),
    TRef.binary (TRef.of (T := ⟨S1048576x1x1, .i1⟩) main_call0_v11) (TRef.of (T := ⟨S_, .i1⟩) main_call0_c_3) (TRef.of (T := ⟨S1048576x1, .i1⟩) main_call0_v12) (fun x v => Host.reduce IntOp.andi x v reducesTo_S1048576x1x1_S1048576x1_d2 h_S_) ]
/-- The third stretch: the take, and the select that keeps it where the test passed. -/
abbrev ops3 : List (HloOp τ sig (Elt F)) :=
  [ TRef.binary (TRef.of (T := ⟨S1048576x128, .f32⟩) main_arg0) (TRef.of (T := ⟨S1048576x1x1, .i32⟩) main_call0_v5) (TRef.of (T := ⟨S1048576x1, .f32⟩) main_call0_v13) (fun x i => Host.gather gather_S1048576x128_S1048576x1x1_S1048576x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S1048576x1, .f32⟩) main_call0_v14) (broadcastInDim S1048576x1 ![] bcast_S_S1048576x1),
    TRef.ternary (TRef.of (T := ⟨S1048576x1, .i1⟩) main_call0_v12) (TRef.of (T := ⟨S1048576x1, .f32⟩) main_call0_v13) (TRef.of (T := ⟨S1048576x1, .f32⟩) main_call0_v14) (TRef.of (T := ⟨S1048576x1, .f32⟩) main_v1) select ]
/-- The fourth stretch: the logarithm, the sum from zero, the quotient, the negation. -/
abbrev ops4 : List (HloOp τ sig (Elt F)) :=
  [ reshape main_v1 main_v2 rfl shapeCasts_S1048576x1_S1048576,
    unary main_v2 main_v3 (Host.log : (⟨S1048576, .f32⟩ : BufTy).Contents (Elt F) → (⟨S1048576, .f32⟩ : BufTy).Contents (Elt F)),
    nullary main_cst (constant S_ .f32 0x00000000#32),
    binary main_v3 main_cst main_v4 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)),
    nullary main_cst_0 (constant S_ .f32 0x49800000#32),
    binary main_v4 main_cst_0 main_v5 (Host.divf : (⟨S_, .f32⟩ : BufTy).Contents (Elt F) → (⟨S_, .f32⟩ : BufTy).Contents (Elt F) → (⟨S_, .f32⟩ : BufTy).Contents (Elt F)),
    unary main_v5 main_v6 (Host.negf : (⟨S_, .f32⟩ : BufTy).Contents (Elt F) → (⟨S_, .f32⟩ : BufTy).Contents (Elt F)) ]

/-- @main's 30 operations, in order (a called function's operations stand in its call's place). -/
abbrev ops : List (HloOp τ sig (Elt F)) := ops1 ++ (ops2 ++ (ops3 ++ ops4))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., binary_bufs_sub .., nullary_bufs_sub .., binary_bufs_sub .., unary_bufs_sub ..⟩

variable (V : Valuation τ sig (Elt F))

/-- After the first stretch the start indices are their stage value of the labels. -/
theorem after1_v5 : after ops1 V (Proc.devRef .tc main_call0_v5) = val_main_call0_v5 (F := F) (V (Proc.devRef .tc main_arg1)) := by
  unfold ops1; after_results; funext i; rfl
theorem after1_arg0 : after ops1 V (Proc.devRef .tc main_arg0) = V (Proc.devRef .tc main_arg0) := by
  unfold ops1; after_results <;> rfl

attribute [local irreducible] Host.reduce in
/-- After the second stretch the test's result is its stage value, the start indices and the probabilities kept. -/
theorem after2_v12' (x5 : (⟨S1048576x1x1, .i32⟩ : BufTy).Contents (Elt F))
    (h5 : V (Proc.devRef .tc main_call0_v5) = x5) :
    after ops2 V (Proc.devRef .tc main_call0_v12)
      = Host.reduce IntOp.andi
          (andi (cmpi .sge x5 (broadcastInDim S1048576x1x1 ![] bcast_S_S1048576x1x1 (constantI S_ 32 0#32)))
            (cmpi .sle x5 (broadcastInDim S1048576x1x1 ![0, 1, 2] bcast_S1x1x1_S1048576x1x1_0_1_2
              (broadcastInDim S1x1x1 ![2] bcast_S1_S1x1x1_2 (constantI S1 32 127#32)))))
          (constantI S_ 1 1#1) reducesTo_S1048576x1x1_S1048576x1_d2 h_S_ := by
  unfold ops2; after_results; rw [h5]; rfl
theorem after2_v12 (x1 : (⟨S1048576, .i32⟩ : BufTy).Contents (Elt F))
    (h5 : V (Proc.devRef .tc main_call0_v5) = val_main_call0_v5 (F := F) x1) :
    after ops2 V (Proc.devRef .tc main_call0_v12) = val_main_call0_v12 (F := F) x1 :=
  after2_v12' V _ h5
theorem after2_v5 : after ops2 V (Proc.devRef .tc main_call0_v5) = V (Proc.devRef .tc main_call0_v5) := by
  unfold ops2; after_results <;> rfl
theorem after2_arg0 : after ops2 V (Proc.devRef .tc main_arg0) = V (Proc.devRef .tc main_arg0) := by
  unfold ops2; after_results <;> rfl

/-- After the third stretch the taken column is its stage value. -/
theorem after3_v1' (x0 : (⟨S1048576x128, .f32⟩ : BufTy).Contents (Elt F)) (x5 : (⟨S1048576x1x1, .i32⟩ : BufTy).Contents (Elt F))
    (x12 : (⟨S1048576x1, .i1⟩ : BufTy).Contents (Elt F))
    (h0 : V (Proc.devRef .tc main_arg0) = x0) (h5 : V (Proc.devRef .tc main_call0_v5) = x5)
    (h12 : V (Proc.devRef .tc main_call0_v12) = x12) :
    after ops3 V (Proc.devRef .tc main_v1)
      = select x12 (Host.gather gather_S1048576x128_S1048576x1x1_S1048576x1_n_1_0_0_1_2_11 x0 x5)
          (broadcastInDim S1048576x1 ![] bcast_S_S1048576x1 (constant S_ .f32 0x7FC00000#32)) := by
  unfold ops3; after_results; rw [h0, h5, h12]; rfl
theorem after3_v1 (x0 : (⟨S1048576x128, .f32⟩ : BufTy).Contents (Elt F)) (x1 : (⟨S1048576, .i32⟩ : BufTy).Contents (Elt F))
    (h0 : V (Proc.devRef .tc main_arg0) = x0)
    (h5 : V (Proc.devRef .tc main_call0_v5) = val_main_call0_v5 (F := F) x1)
    (h12 : V (Proc.devRef .tc main_call0_v12) = val_main_call0_v12 (F := F) x1) :
    after ops3 V (Proc.devRef .tc main_v1) = val_main_v1 (F := F) x0 x1 :=
  after3_v1' V _ _ _ h0 h5 h12

/-- After the fourth stretch the result is the last stage's value. -/
theorem after4_v6 (x0 : (⟨S1048576x128, .f32⟩ : BufTy).Contents (Elt F)) (x1 : (⟨S1048576, .i32⟩ : BufTy).Contents (Elt F))
    (h1 : V (Proc.devRef .tc main_v1) = val_main_v1 (F := F) x0 x1) :
    after ops4 V (Proc.devRef .tc main_v6) = val_main_v6 (F := F) x0 x1 := by
  unfold ops4; after_results; rw [h1]; rfl

/-- The whole line: the result buffer at the last stage's value of the arguments as the line found them. -/
theorem out_eq : after ops V (Proc.devRef .tc main_v6)
    = val_main_v6 (F := F) (V (Proc.devRef .tc main_arg0)) (V (Proc.devRef .tc main_arg1)) := by
  show after (ops1 ++ (ops2 ++ (ops3 ++ ops4))) V _ = _
  rw [after_append, after_append, after_append]
  refine after4_v6 _ _ _ (after3_v1 _ _ _ ?_ ?_ ?_)
  · rw [after2_arg0, after1_arg0]
  · rw [after2_v5, after1_v5]
  · exact after2_v12 _ _ (after1_v5 V)

theorem arg0_eq : after ops V (Proc.devRef .tc main_arg0) = V (Proc.devRef .tc main_arg0) := by
  unfold ops ops1 ops2 ops3 ops4; simp only [List.cons_append, List.nil_append]; after_results <;> rfl
theorem arg1_eq : after ops V (Proc.devRef .tc main_arg1) = V (Proc.devRef .tc main_arg1) := by
  unfold ops ops1 ops2 ops3 ops4; simp only [List.cons_append, List.nil_append]; after_results <;> rfl

/-- On every device, for any float values, from any memory with zero counters: every weakly fair execution of
    @main terminates with the result at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = val_main_v6 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.RunP

end
-- ==== Proof.LibGatherRows.lean ====
/-
  A general reading lemma: the row-wise take. `take_along_axis(x, idx, axis=1)` of an `[n, c]` array at one index per row
  prints as a gather whose row axis is a batching axis and whose column axis is collapsed, over start indices `[n, 1, 1]`.
  Read at row `r`, it is the operand at row `r` and at the column the start index names, read signed and clamped
  into `[0, c − 1]`.
-/
import Idealize.ShloMosaic.Lib.ValueIdx

noncomputable section

namespace Cert.LibGatherRows

open Idealize.ShloMosaic Idealize.ShloMosaic.ValueIdx

variable {α : Type}

/-- The dimension numbers of the row-wise take: operand `[n, c]`, start indices `[n, 1, 1]`, result `[n, 1]`. -/
abbrev rowsDims (n c : Nat)
    (wf : GatherDims.WF ⟨2, ![n, c]⟩ ⟨3, ![n, 1, 1]⟩ ⟨2, ![n, 1]⟩ [] [1] [0] [1] [0] 2 ![1, 1]) :
    GatherDims ⟨2, ![n, c]⟩ ⟨3, ![n, 1, 1]⟩ ⟨2, ![n, 1]⟩ where
  offsetDims := []
  collapsedSliceDims := [1]
  operandBatchingDims := [0]
  startIndicesBatchingDims := [0]
  startIndexMap := [1]
  indexVectorDim := 2
  sliceSizes := ![1, 1]
  wf := wf

/-- THE ROW-WISE TAKE READ AT ROW `r`: the operand at `(r, clamp idx[r, 0, 0])`. -/
theorem gather_rows_apply {n c w : Nat} (hc : 0 < c)
    (wf : GatherDims.WF ⟨2, ![n, c]⟩ ⟨3, ![n, 1, 1]⟩ ⟨2, ![n, 1]⟩ [] [1] [0] [1] [0] 2 ![1, 1])
    (x : (⟨2, ![n, c]⟩ : Shape).Idx → α) (idx : IVec ⟨3, ![n, 1, 1]⟩ w) (r : Fin n) (u : Fin 1) :
    Host.gather (rowsDims n c wf) x idx (ix2 r u)
      = x (ix2 r ⟨min (idx (ix3 r (0 : Fin 1) (0 : Fin 1))).toInt.toNat (c - 1), by omega⟩) := by
  unfold Host.gather
  congr 1
  funext a
  refine Fin.ext ?_
  match a with
  | ⟨0, _⟩ =>
    -- the row axis is a batching axis: no start, no offset, the row of the result index
    show (rowsDims n c wf).start (ix2 r u) idx 0 + (rowsDims n c wf).batchCoord (ix2 r u) 0 + (rowsDims n c wf).offCoord (ix2 r u) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    -- the column axis is collapsed and indexed: the clamped start, nothing else
    show (rowsDims n c wf).start (ix2 r u) idx 1 + (rowsDims n c wf).batchCoord (ix2 r u) 1 + (rowsDims n c wf).offCoord (ix2 r u) 1 = _
    rw [GatherDims.batchCoord_eq_zero _ _ _ (show (1 : Fin 2) ∉ (rowsDims n c wf).operandBatchingDims from by simp),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowsDims n c wf).startIndexMap from List.mem_singleton.mpr rfl)]
    have hsi : (rowsDims n c wf).siIdx (ix2 r u) ⟨List.idxOf (1 : Fin 2) (rowsDims n c wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ =>
        have hu : u.val = 0 := by omega
        exact Eq.trans (b := u.val) rfl hu
      | ⟨2, _⟩ => rfl
    rw [hsi]
    rfl

end Cert.LibGatherRows

end
-- ==== Proof.RefValue.lean ====
/-
  The reference program's result at the exact instance is the loss of its two arguments.

  The reference wraps a negative label by adding 128, tests the index against `[0, 127]`, takes the row's entry at the
  clamped index and keeps it where the test passed. A label in `[0, 128)` is not wrapped, passes the test and is not
  moved by the clamp, so row `r` yields its labelled probability; then come the logarithm, the sum from zero, the
  quotient by 2²⁰ and the negation.
-/
import proofs.«420422_j55989193670921_3_alg».proof.Proof.RefRead
import proofs.«420422_j55989193670921_3_alg».proof.Proof.LibGatherRows
import proofs.«420422_j55989193670921_3_alg».proof.Proof.LabelWords
import proofs.«420422_j55989193670921_3_alg».proof.Proof.LossSpec
import Idealize.ShloMosaic.Lib.ValueIdxRank1

noncomputable section

namespace Cert.ReferenceIdeal.RefValue

open Cert.ReferenceIdeal Cert.ReferenceIdeal.Gen Cert.ReferenceIdeal.ReadP Cert.LossSpec
open Idealize.ShloMosaic Idealize.ShloMosaic.ValueIdx

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l fun n hn => h n (List.mem_cons_of_mem _ hn)

variable (X : FVec Ideal S1048576x128 .f32) (L : IVec S1048576 32)
variable (hL : ∀ i, 0 ≤ (L i).toInt ∧ (L i).toInt < 128)
include hL

/-- The start index of a row is its label: a label that is not negative is not wrapped. -/
theorem start_apply (i : S1048576x1x1.Idx) :
    val_main_call0_v5 (F := Ideal) L i = L (ix1 (show Fin 1048576 from i 0)) := by
  have e : idx_main_v0 (idx_main_call0_v5 i) = ix1 (show Fin 1048576 from i 0) := by
    funext a
    match a with
    | ⟨0, _⟩ =>
      apply Fin.ext
      have h1 : (i 1).val < 1 := (i 1).isLt
      have h2 : (i 2).val < 1 := (i 2).isLt
      show (((i 0).val * 1 + (i 1).val) * 1 + (i 2).val) / 1 = (i 0).val
      omega
  rw [val_main_call0_v5_apply, val_main_call0_v4_apply, val_main_call0_v1_apply, val_main_v0_apply, e]
  have z : val_main_call0_v0 (F := Ideal) (idx_main_call0_v5 i) = 0#32 := rfl
  rw [z, Cert.LabelWords.slt_zero _ (hL (ix1 (show Fin 1048576 from i 0))).1, select_zero]

/-- The range test passes on every row. -/
theorem inrange_apply (i : S1048576x1.Idx) : val_main_call0_v12 (F := Ideal) L i = 1#1 := by
  unfold val_main_call0_v12
  rw [Host.reduce_eq_foldl]
  refine foldl_andi_one _ _ fun n _ => ?_
  have z6 : val_main_call0_v6 (F := Ideal) n = 0#32 := rfl
  have z9 : val_main_call0_v9 (F := Ideal) n = 127#32 := rfl
  rw [val_main_call0_v11_apply, val_main_call0_v7_apply, val_main_call0_v10_apply, start_apply L hL n, z6, z9,
    Cert.LabelWords.sge_zero _ (hL (ix1 (show Fin 1048576 from n 0))).1,
    Cert.LabelWords.sle_127 _ (hL (ix1 (show Fin 1048576 from n 0))).2]
  decide

/-- Row `r` yields its labelled probability. -/
theorem taken_apply (r : Fin 1048576) (u : Fin 1) :
    val_main_v1 (F := Ideal) X L (ix2 r u) = X (ix2 r (col (L (ix1 r)))) := by
  have hl := Cert.LabelWords.toNat_of_range _ (hL (ix1 r)).1 (hL (ix1 r)).2
  rw [val_main_v1_apply, inrange_apply L hL, select_one]
  unfold val_main_call0_v13
  show Host.gather (Cert.LibGatherRows.rowsDims 1048576 128 Facts₀.gather_S1048576x128_S1048576x1x1_S1048576x1_n_1_0_0_1_2_11_wf) X
    (val_main_call0_v5 (F := Ideal) L) (ix2 r u) = _
  rw [Cert.LibGatherRows.gather_rows_apply (by decide)]
  refine congrArg X (congrArg (ix2 r) (Fin.ext ?_))
  show min (val_main_call0_v5 (F := Ideal) L (ix3 r (0 : Fin 1) (0 : Fin 1))).toInt.toNat (128 - 1) = (L (ix1 r)).toNat % 128
  rw [start_apply L hL]
  show min (L (ix1 r)).toInt.toNat (128 - 1) = (L (ix1 r)).toNat % 128
  have h1 := hl.1
  have h2 := hl.2
  rw [Nat.mod_eq_of_lt h1]
  omega

/-- THE REFERENCE PROGRAM'S RESULT is the loss of its arguments. -/
theorem result_eq (i : S_.Idx) : val_main_v6 (F := Ideal) X L i = loss X L := by
  -- the sum over the rows, row by row
  have hsum : ∑ j : S1048576.Idx, val_main_v3 (F := Ideal) X L j = ∑ r ∈ Finset.range 1048576, rowLog X L r := by
    rw [← Equiv.sum_comp (idxEquiv1 (n := 1048576)).symm, ← Fin.sum_univ_eq_sum_range (fun r => rowLog X L r) 1048576]
    refine Finset.sum_congr rfl fun r _ => ?_
    show val_main_v3 (F := Ideal) X L (ix1 r) = _
    have e : idx_main_v2 (ix1 r) = ix2 r (0 : Fin 1) := by
      funext a
      match a with
      | ⟨0, _⟩ => exact Fin.ext (Nat.div_one _)
      | ⟨1, _⟩ => rfl
    rw [val_main_v3_apply, val_main_v2_apply, rowLog_of_lt X L r.val r.isLt, e, taken_apply X L hL, Ideal.hostUnary_log_def]
  rw [val_main_v6_apply, val_main_v5_apply, val_main_v4_apply, val_main_cst_apply, val_main_cst_0_apply, hsum]
  simp only [Ideal.hostNegf_def, Ideal.negf_def, Ideal.hostDivf_def, Ideal.ofBits_def]
  rw [Ideal.ofBits_zero_f32, Cert.SumLaws.ofBits_n]
  exact mean_eq_loss X L

end Cert.ReferenceIdeal.RefValue

end
-- ==== Proof.PreFacts.lean ====
/-
  What the precondition says of the two inputs: every probability is below +∞ (so its logarithm is not +∞), and every
  label, read signed, lies in `[0, 128)`, the range of the 128 columns it selects from.
-/
import proofs.«420422_j55989193670921_3_alg».proof.Pre_finite_inputs
import proofs.«420422_j55989193670921_3_alg».proof.Proof.Gen.Pre_finite_inputs
import proofs.«420422_j55989193670921_3_alg».proof.Proof.LabelWords
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_finite_inputs Cert.Pre_finite_inputs.Gen

instance : Subsingleton S_.Idx := ⟨fun a b => funext fun d => d.elim0⟩

/-- A one-bit comparison result that is set says the comparison holds. -/
theorem lt_of_cmp_olt {a b : EReal} (h : Ideal.cmp .olt a b = 1#1) : a < b := by
  unfold Ideal.cmp at h
  by_cases hab : a < b
  · exact hab
  · simp [hab] at h

/-- THE PRECONDITION, READ: no probability is +∞, and every label is in `[0, 128)`. -/
theorem of_pre (X : FVec Ideal S1048576x128 .f32) (L : IVec S1048576 32)
    (h : Cert.Pre_finite_inputs.fn (F := Ideal) X L = fun _ => 1#1) :
    (∀ i, X i ≠ ⊤) ∧ (∀ i, 0 ≤ (L i).toInt ∧ (L i).toInt < 128) := by
  have h' := congrFun h ix0
  dsimp only [Cert.Pre_finite_inputs.fn] at h'
  obtain ⟨hA, hB⟩ := IntOp.andi_eq_one.1 h'
  constructor
  · intro i
    have e := Host.reduce_andi_all _ _ _ _ _ hA i
    have e' : Ideal.cmp .olt (max (X i) (-(X i))) (Ideal.ofBits .f32 0x7F800000#32) = 1#1 := e
    have hlt := lt_of_cmp_olt e'
    exact ne_of_lt (lt_of_le_of_lt (le_max_left _ _) (lt_of_lt_of_le hlt le_top))
  · intro i
    have e := Host.reduce_andi_all _ _ _ _ _ hB i
    obtain ⟨e0, e1⟩ := IntOp.andi_eq_one.1 e
    exact Cert.LabelWords.range_of_cmp (L i) e0 e1

end Cert.PreFacts

end
-- ==== Proof.lean ====
/-
  The certificate of a mean negative log-likelihood kernel against its jnp reference, over the extended reals.

  Both programs compute `loss = −2⁻²⁰ · ∑ᵣ log p[r, label r]` over 1048576 rows of 128 probabilities. The kernel walks
  2 × 64 blocks of 8192 rows; in a block it selects each row's labelled entry by comparing the column numbers with the
  label and summing the row, takes logarithms, negates, sums the block, scales by 2⁻²⁰ and accumulates per core; the host
  adds the two cores' scalars. The reference takes the labelled entries by a row-wise take, sums all logarithms, divides
  by 2²⁰ and negates. The claim is stated for finite probabilities and labels in `[0, 128)`: a label outside that range
  selects no column in the kernel but is wrapped or rejected by the reference's take.

  The frames of the two kernel programs are the generated ones; the reference's frame is its run with the result dropped.
  The ideal pass rewrote nothing, so the kernel's idealization is its own text. For the value claim each program's result
  is shown to be the one function `Cert.LossSpec.loss` of the arguments: the kernel's by reading the accumulated scalar
  point by point (Proof/KernelValue.lean, Proof/KernelRun.lean), the reference's by reading its run stage by stage
  (Proof/RefRun.lean, Proof/RefValue.lean); the laws of finite sums of extended reals that join the two arrangements are
  in Proof/SumLaws.lean and Proof/LossSpec.lean, and what the precondition gives in Proof/PreFacts.lean.
-/
import proofs.«420422_j55989193670921_3_alg».proof.Defs
import proofs.«420422_j55989193670921_3_alg».proof.Proof.Gen.Kernel
import proofs.«420422_j55989193670921_3_alg».proof.Proof.Gen.Kernel.Skeleton
import proofs.«420422_j55989193670921_3_alg».proof.Proof.Gen.Kernel.Launch
import proofs.«420422_j55989193670921_3_alg».proof.Proof.Gen.Kernel.Points
import proofs.«420422_j55989193670921_3_alg».proof.Proof.Gen.Kernel.Frame
import proofs.«420422_j55989193670921_3_alg».proof.Proof.Gen.KernelIdeal
import proofs.«420422_j55989193670921_3_alg».proof.Proof.Gen.KernelIdeal.Skeleton
import proofs.«420422_j55989193670921_3_alg».proof.Proof.Gen.KernelIdeal.Launch
import proofs.«420422_j55989193670921_3_alg».proof.Proof.Gen.KernelIdeal.Points
import proofs.«420422_j55989193670921_3_alg».proof.Proof.Gen.KernelIdeal.Frame
import proofs.«420422_j55989193670921_3_alg».proof.Proof.Gen.ReferenceIdeal
import proofs.«420422_j55989193670921_3_alg».proof.Proof.Gen.Pre_finite_inputs
import proofs.«420422_j55989193670921_3_alg».proof.Proof.KernelRun
import proofs.«420422_j55989193670921_3_alg».proof.Proof.RefRun
import proofs.«420422_j55989193670921_3_alg».proof.Proof.RefValue
import proofs.«420422_j55989193670921_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories agreeing on the arguments both programs end at the loss of those arguments. -/
theorem algebraic : Cert.algebraic_KernelIdeal_ReferenceIdeal := by
  intro m ρ m' ρ' hpre hagree
  refine ⟨fun c => fun _ => Cert.LossSpec.loss (Cert.KernelIdeal.KValue.argX m c) (Cert.KernelIdeal.KValue.argL m c), ?_, ?_⟩
  · refine (θ_run Cert.KernelIdeal.defs _ _).mono (fun r h c => ⟨?_, (h c).2⟩) (Cert.KernelIdeal.KValue.run m ρ)
    obtain ⟨hX, hL⟩ := Cert.PreFacts.of_pre _ _ (hpre c)
    rw [(h c).1]
    funext i
    exact Cert.KernelIdeal.KValue.result_eq m c hL hX i
  · refine (θ_run Cert.ReferenceIdeal.defs _ _).mono (fun r h c => ⟨?_, (h c).2⟩)
      (Cert.ReferenceIdeal.RunP.run (F := Ideal) m' ρ')
    obtain ⟨hX, hL⟩ := Cert.PreFacts.of_pre _ _ (hpre c)
    rw [(h c).1, (hagree c).1, (hagree c).2]
    funext i
    exact Cert.ReferenceIdeal.RefValue.result_eq _ _ hL i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
